-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S512x7 .f32) (main_arg5 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x7 .f32 := Host.absf main_arg4
  let main_cst_6 : FVec F S_ .f32 := constant S_ .f32 0x7F800000#32
  let main_v20 : FVec F S512x7 .f32 := broadcastInDim S512x7 ![] bcast_S_S512x7 main_cst_6
  let main_v21 : IVec S512x7 1 := cmpf .olt main_v19 main_v20
  let main_c_7 : IVec S_ 1 := constantI S_ 1 1#1
  let main_v22 : IVec S_ 1 := (fun x v => Host.reduce IntOp.andi x v reducesTo_S512x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x512 .f32) (main_arg3 : FVec F S512 .f32) (main_arg4 : FVec F S512x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x512 .f32 := Host.absf main_arg2
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩
abbrev S10000x1536 : Shape := ⟨2, ![10000, 1536]⟩
abbrev S1536x512 : Shape := ⟨2, ![1536, 512]⟩
abbrev S10000x512 : Shape := ⟨2, ![10000, 512]⟩
abbrev S2000x1536 : Shape := ⟨2, ![2000, 1536]⟩
abbrev S2000x512 : Shape := ⟨2, ![2000, 512]⟩
abbrev S1x512 : Shape := ⟨2, ![1, 512]⟩
abbrev S10000x7 : Shape := ⟨2, ![10000, 7]⟩
abbrev S400x10000 : Shape := ⟨2, ![400, 10000]⟩
abbrev S400x7 : Shape := ⟨2, ![400, 7]⟩
abbrev S400x512 : Shape := ⟨2, ![400, 512]⟩
abbrev S1x7 : Shape := ⟨2, ![1, 7]⟩
abbrev S400 : Shape := ⟨1, ![400]⟩
abbrev S400x1 : Shape := ⟨2, ![400, 1]⟩

abbrev nBuf : Space → Nat
  | .hbm => 20
  | .vmem => 18
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S_, .i32⟩
  | .hbm, ⟨7, _⟩ => ⟨S_, .f32⟩
  | .hbm, ⟨8, _⟩ => ⟨S10000x1536, .f32⟩
  | .hbm, ⟨9, _⟩ => ⟨S10000x1536, .bf16⟩
  | .hbm, ⟨10, _⟩ => ⟨S_, .i32⟩
  | .hbm, ⟨11, _⟩ => ⟨S_, .f32⟩
  | .hbm, ⟨12, _⟩ => ⟨S1536x512, .f32⟩
  | .hbm, ⟨13, _⟩ => ⟨S1536x512, .bf16⟩
  | .hbm, ⟨14, _⟩ => ⟨S512x7, .bf16⟩
  | .hbm, ⟨15, _⟩ => ⟨S10000x512, .bf16⟩
  | .hbm, ⟨16, _⟩ => ⟨S1x512, .f32⟩
  | .hbm, ⟨17, _⟩ => ⟨S10000x7, .bf16⟩
  | .hbm, ⟨18, _⟩ => ⟨S1x7, .f32⟩
  | .hbm, ⟨19, _⟩ => ⟨S10000x7, .f32⟩
  | .local _ .vmem, ⟨0, _⟩ => ⟨S2000x1536, .bf16⟩
  | .local _ .vmem, ⟨1, _⟩ => ⟨S2000x1536, .bf16⟩
  | .local _ .vmem, ⟨2, _⟩ => ⟨S1536x512, .bf16⟩
  | .local _ .vmem, ⟨3, _⟩ => ⟨S2000x512, .bf16⟩
  | .local _ .vmem, ⟨4, _⟩ => ⟨S2000x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S1x512, .f32⟩
  | .local _ .vmem, ⟨9, _⟩ => ⟨S512x7, .bf16⟩
  | .local _ .vmem, ⟨10, _⟩ => ⟨S400x7, .bf16⟩
  | .local _ .vmem, ⟨11, _⟩ => ⟨S400x7, .bf16⟩
  | .local _ .vmem, ⟨12, _⟩ => ⟨S400x10000, .f32⟩
  | .local _ .vmem, ⟨13, _⟩ => ⟨S400x10000, .f32⟩
  | .local _ .vmem, ⟨14, _⟩ => ⟨S10000x7, .bf16⟩
  | .local _ .vmem, ⟨15, _⟩ => ⟨S1x7, .f32⟩
  | .local _ .vmem, ⟨16, _⟩ => ⟨S400x7, .f32⟩
  | .local _ .vmem, ⟨17, _⟩ => ⟨S400x7, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x7 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x7 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  pads_S10000x1433_S10000x1536_000_01030 : S10000x1433.Pads (![0, 0] : Fin 2 → Nat) ![0, 103] ![0, 0] S10000x1536
  h_S_ : 0 < S_.numel
  bitsLt_bf16_f32 : FTy.bits .bf16 < FTy.bits .f32
  pads_S1433x512_S1536x512_01030_000 : S1433x512.Pads (![0, 0] : Fin 2 → Nat) ![103, 0] ![0, 0] S1536x512
  inb_S2000x1536_S2000x1536_0_0 : ∀ a, (![0, 0] : Fin 2 → Nat) a + S2000x1536.size a ≤ S2000x1536.size a
  h_S2000x1536 : 0 < S2000x1536.numel
  shapeCasts_S2000x1536_S2000x1536 : S2000x1536.ShapeCasts S2000x1536
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S2000x512_S2000x512_0_0 : ∀ a, (![0, 0] : Fin 2 → Nat) a + S2000x512.size a ≤ S2000x512.size a
  h_S2000x512 : 0 < S2000x512.numel
  packedbf16_S2000x512_S2000x512_0_0 : (Rect.unit (s := S2000x512) ![0, 0] S2000x512.size inb_S2000x512_S2000x512_0_0).PackedRows (EltTy.packing .bf16)
  shapeCasts_S512_S1x512 : S512.ShapeCasts S1x512
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x7_S512x7_0_0 : ∀ a, (![0, 0] : Fin 2 → Nat) a + S512x7.size a ≤ S512x7.size a
  h_S512x7 : 0 < S512x7.numel
  shapeCasts_S512x7_S512x7 : S512x7.ShapeCasts S512x7
  inb_S400x7_S400x7_0_0 : ∀ a, (![0, 0] : Fin 2 → Nat) a + S400x7.size a ≤ S400x7.size a
  h_S400x7 : 0 < S400x7.numel
  packedbf16_S400x7_S400x7_0_0 : (Rect.unit (s := S400x7) ![0, 0] S400x7.size inb_S400x7_S400x7_0_0).PackedRows (EltTy.packing .bf16)
  shapeCasts_S7_S1x7 : S7.ShapeCasts S1x7
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  reduces_S400x7_S400 : S400x7.Reduces [1] S400
  shapeCasts_S400_S400x1 : S400.ShapeCasts S400x1
  broadcasts_S400x1_S400x7 : S400x1.Broadcasts S400x7
  dot_S2000x1536_S1536x512_S2000x512_1_0_0_1_n_n_wf : DotDims.WF S2000x1536 S1536x512 S2000x512 [1] [0] [0] [1] [] []
  dot_S400x10000_S10000x512_S400x512_1_0_0_1_n_n_wf : DotDims.WF S400x10000 S10000x512 S400x512 [1] [0] [0] [1] [] []
  dot_S400x512_S512x7_S400x7_1_0_0_1_n_n_wf : DotDims.WF S400x512 S512x7 S400x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1536.size a ≤ S10000x1536.size a
  hwx0_0 : ∀ i : grid0.Coords, EltTy.bits .bf16 = 32 ∨ (Rect.block (s := S10000x1536) S2000x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x7.size a ≤ S512x7.size a
  hwx1_3 : ∀ i : grid1.Coords, EltTy.bits .bf16 = 32 ∨ (Rect.block (s := S512x7) S512x7.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x7.size a ≤ S10000x7.size a
  hwx1_4 : ∀ i : grid1.Coords, EltTy.bits .bf16 = 32 ∨ (Rect.block (s := S10000x7) S400x7.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .bf16 = 32 ∨ (Rect.block (s := S10000x7) S10000x7.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x7.size a ≤ S10000x7.size a
  hwx2_3 : ∀ i : grid2.Coords, EltTy.bits .f32 = 32 ∨ (Rect.block (s := S10000x7) S400x7.size (cc2_transform_3 i) (hinb2_3 i)).WholeWords (EltTy.packing .f32)

variable [Facts₀]

def dot_S2000x1536_S1536x512_S2000x512_1_0_0_1_n_n : DotDims S2000x1536 S1536x512 S2000x512 where
  lhsContracting := [1]
  rhsContracting := [0]
  lhsNonContracting := [0]
  rhsNonContracting := [1]
  lhsBatch := []
  rhsBatch := []
  wf := dot_S2000x1536_S1536x512_S2000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x7_S400x7_1_0_0_1_n_n : DotDims S400x512 S512x7 S400x7 where
  lhsContracting := [1]
  rhsContracting := [0]
  lhsNonContracting := [0]
  rhsNonContracting := [1]
  lhsBatch := []
  rhsBatch := []
  wf := dot_S400x512_S512x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_v1) S2000x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S400x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S400x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S10000x512 : Shape := ⟨2, ![10000, 512]⟩
abbrev S1x512 : Shape := ⟨2, ![1, 512]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x7, .f32⟩
  | .hbm, ⟨32, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x512_S10000x512_1_0_0_1_n_n_wf : DotDims.WF S10000x1433 S1433x512 S10000x512 [1] [0] [0] [1] [] []
  dot_S10000x10000_S10000x512_S10000x512_1_0_0_1_n_n_wf : DotDims.WF S10000x10000 S10000x512 S10000x512 [1] [0] [0] [1] [] []
  dot_S10000x512_S512x7_S10000x7_1_0_0_1_n_n_wf : DotDims.WF S10000x512 S512x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x512_S10000x512_1_0_0_1_n_n : DotDims S10000x1433 S1433x512 S10000x512 where
  lhsContracting := [1]
  rhsContracting := [0]
  lhsNonContracting := [0]
  rhsNonContracting := [1]
  lhsBatch := []
  rhsBatch := []
  wf := dot_S10000x1433_S1433x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x7_S10000x7_1_0_0_1_n_n : DotDims S10000x512 S512x7 S10000x7 where
  lhsContracting := [1]
  rhsContracting := [0]
  lhsNonContracting := [0]
  rhsNonContracting := [1]
  lhsBatch := []
  rhsBatch := []
  wf := dot_S10000x512_S512x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.Spec.lean ====
/-
  The mathematics of the certificate: a two-layer graph convolution followed by a softmax over the classes, over
  the extended reals.

    support₁ = x · W₁                                   [10000 × 512]
    hidden   = max (adj · support₁ + b₁, 0)             [10000 × 512]
    support₂ = hidden · W₂                              [10000 × 7]
    logit    = adj · support₂ + b₂                      [10000 × 7]
    prob     = exp (logit − rowmax) / Σ_classes exp (logit − rowmax)

  Every quantity of a row depends on that row of the adjacency matrix alone, so the row formulas are stated for a
  matrix of ANY number of rows R: a block of rows and the whole matrix are the same formula. The biases enter as
  one-row matrices, which is how both programs hold them. The one law used between the two programs: a product
  whose contraction runs over 1536 positions, the last 103 of both operands zero, is the product over the first
  1433 (zero times zero is zero on the extended reals, and adding zeros changes nothing: no finiteness is needed).
-/
import Idealize.ShloMosaic.Lib.ValueIdx
import Idealize.ShloMosaic.PureOps.Ideal.Laws

noncomputable section

namespace Cert.Gcn

open Idealize.ShloMosaic Idealize.ShloMosaic.ValueIdx

/-- An a × b matrix of extended reals, indexed as the programs index a rank-2 array. -/
abbrev Mat (a b : Nat) : Type := (⟨2, ![a, b]⟩ : Shape).Idx → EReal

/-- Entry (r, j) of a product: row r of x against column j of w, over a contraction of any length K. -/
def sup1 {R K : Nat} (x : Mat R K) (w : Mat K 512) (r : Fin R) (j : Fin 512) : EReal :=
  ∑ k : Fin K, x (ix2 r k) * w (ix2 k j)

/-- The hidden activation of row r at unit j: the larger of zero and the row of the adjacency matrix against column
    j of the first support, plus the bias of unit j. -/
def hid {R : Nat} (adj : Mat R 10000) (s1 : Mat 10000 512) (b : Mat 1 512) (r : Fin R) (j : Fin 512) : EReal :=
  max ((∑ k : Fin 10000, adj (ix2 r k) * s1 (ix2 k j)) + b (ix2 (0 : Fin 1) j)) (Ideal.ofBits .f32 0x00000000#32)

/-- The second support: the hidden activations of row r against column q of the second weight matrix. -/
def sup2 {R : Nat} (adj : Mat R 10000) (s1 : Mat 10000 512) (b : Mat 1 512) (w : Mat 512 7) (r : Fin R) (q : Fin 7) : EReal :=
  ∑ j : Fin 512, hid adj s1 b r j * w (ix2 j q)

/-- The logit of row r for class q: the row of the adjacency matrix against column q of the second support, plus the
    bias of class q. -/
def logit {R : Nat} (adj : Mat R 10000) (s2 : Mat 10000 7) (b : Mat 1 7) (r : Fin R) (q : Fin 7) : EReal :=
  (∑ k : Fin 10000, adj (ix2 r k) * s2 (ix2 k q)) + b (ix2 (0 : Fin 1) q)

/-- The largest logit of row r: the maximum over the seven classes, from minus infinity. -/
def rowMax {R : Nat} (adj : Mat R 10000) (s2 : Mat 10000 7) (b : Mat 1 7) (r : Fin R) : EReal :=
  (Finset.univ : Finset (Fin 7)).fold max (Ideal.ofBits .f32 0xFF800000#32) (fun q => logit adj s2 b r q)

/-- The exponential of a logit less its row's largest. -/
def expo {R : Nat} (adj : Mat R 10000) (s2 : Mat 10000 7) (b : Mat 1 7) (r : Fin R) (q : Fin 7) : EReal :=
  Ideal.exp (logit adj s2 b r q - rowMax adj s2 b r)

/-- The class probability: that exponential over the sum of the row's seven. -/
def prob {R : Nat} (adj : Mat R 10000) (s2 : Mat 10000 7) (b : Mat 1 7) (r : Fin R) (q : Fin 7) : EReal :=
  Ideal.div (expo adj s2 b r q) (∑ q' : Fin 7, expo adj s2 b r q')

/-- The first support as an array. -/
def sup1Arr {K : Nat} (x : Mat 10000 K) (w : Mat K 512) : Mat 10000 512 :=
  fun i => sup1 x w ⟨(i 0).val, (i 0).isLt⟩ ⟨(i 1).val, (i 1).isLt⟩

/-- The second support as an array. -/
def sup2Arr (adj : Mat 10000 10000) (s1 : Mat 10000 512) (b : Mat 1 512) (w : Mat 512 7) : Mat 10000 7 :=
  fun i => sup2 adj s1 b w ⟨(i 0).val, (i 0).isLt⟩ ⟨(i 1).val, (i 1).isLt⟩

/-- The class probabilities as an array. -/
def probArr (adj : Mat 10000 10000) (s2 : Mat 10000 7) (b : Mat 1 7) : Mat 10000 7 :=
  fun i => prob adj s2 b ⟨(i 0).val, (i 0).isLt⟩ ⟨(i 1).val, (i 1).isLt⟩

/-- A vector of n entries as the one-row matrix both programs make of a bias. -/
def rowOf {n : Nat} (b : (⟨1, ![n]⟩ : Shape).Idx → EReal) : Mat 1 n :=
  fun i => b (ix1 ⟨(i 1).val, (i 1).isLt⟩)

/-- A sum over 1433 + 103 positions whose last 103 terms vanish is the sum over the first 1433. -/
theorem sum_padded (f : Fin 1536 → EReal) (hz : ∀ k : Fin 1536, 1433 ≤ k.val → f k = 0) :
    ∑ k : Fin 1536, f k = ∑ k : Fin 1433, f ⟨k.val, by have := k.isLt; omega⟩ := by
  have e : (∑ k : Fin 1536, f k) = ∑ k : Fin (1433 + 103), f k := rfl
  rw [e, Fin.sum_univ_add]
  have h2 : ∑ i : Fin 103, f (Fin.natAdd 1433 i) = 0 :=
    Finset.sum_eq_zero fun i _ => hz _ (by show 1433 ≤ 1433 + i.val; omega)
  rw [h2, add_zero]
  rfl

/-- THE PADDING LAW. If xp is x with 103 zero columns appended and wp is w with 103 zero rows appended, the product of
    the padded matrices is the product of x and w, entry by entry. -/
theorem sup1_padded {R : Nat} (x : Mat R 1433) (w : Mat 1433 512) (xp : Mat R 1536) (wp : Mat 1536 512)
    (hx : ∀ (r : Fin R) (k : Fin 1536), xp (ix2 r k) = if h : k.val < 1433 then x (ix2 r ⟨k.val, h⟩) else 0)
    (hw : ∀ (k : Fin 1536) (j : Fin 512), wp (ix2 k j) = if h : k.val < 1433 then w (ix2 ⟨k.val, h⟩ j) else 0)
    (r : Fin R) (j : Fin 512) : sup1 xp wp r j = sup1 x w r j := by
  unfold sup1
  rw [sum_padded (fun k => xp (ix2 r k) * wp (ix2 k j)) fun k hk => by
    rw [hx r k, dif_neg (by omega), zero_mul]]
  refine Finset.sum_congr rfl fun k _ => ?_
  have hk : k.val < 1433 := k.isLt
  rw [hx r ⟨k.val, by omega⟩, hw ⟨k.val, by omega⟩ j, dif_pos hk, dif_pos hk]

end Cert.Gcn

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Support1.lean ====
import proofs.«103336_g25812753449811_cont_sun_m_348_17_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«103336_g25812753449811_cont_sun_m_348_17_alg».proof.Proof.LibPlainDot
import proofs.«103336_g25812753449811_cont_sun_m_348_17_alg».proof.Proof.Spec
set_option maxRecDepth 16384

noncomputable section

namespace Cert.KernelIdeal.Support1
open Cert.KernelIdeal Cert.KernelIdeal.Gen Idealize.ShloMosaic Idealize.ShloMosaic.TcCoe Idealize.SL.Sem
open Idealize.ShloMosaic.Pipeline (Dat)
open Idealize.ShloMosaic.ValueIdx
open Cert.Gcn

variable (V : (c : Dev nD) → (b : Ref sig .tc) → Buf (Elt Ideal) ((c : Thread nD τ).loc b))

/-- The two arrays the region stages, as it finds them, at their literal types. -/
abbrev lhsArr (c : Dev nD) : S10000x1536.Idx → EReal := V c main_v1
abbrev rhsArr (c : Dev nD) : S1536x512.Idx → EReal := V c main_v3

theorem hz : (![0, 0] : Fin 2 → Nat) = fun _ => 0 := funext fun a => by fin_cases a <;> rfl

/-- The body's stored value at an entry of the block: the rounding to the narrower format is the identity at the ideal
    values, the two casts are to the same shape, and the product accumulates into zero. -/
theorem pay_apply (x0 : Vec Ideal S2000x1536 .bf16) (x1 : Vec Ideal S1536x512 .bf16) (y : S2000x512.Idx) :
    k0_pay1 x0 x1 y = ∑ k : Fin 1536, x0 (ix2 ⟨(y 0).val, (y 0).isLt⟩ k) * x1 (ix2 k ⟨(y 1).val, (y 1).isLt⟩) := by
  unfold k0_pay1
  rw [shapeCast_self, shapeCast_self]
  refine Eq.trans ?_ (PlainDot.matmul_zero_apply (φ₁ := .bf16) (φ₂ := .bf16) dot_S2000x1536_S1536x512_S2000x512_1_0_0_1_n_n rfl rfl rfl rfl rfl rfl rfl rfl none x0 x1 (y 0) (y 1))
  exact congrArg (matmul (F := Ideal) (φ₁ := .bf16) (φ₂ := .bf16) dot_S2000x1536_S1536x512_S2000x512_1_0_0_1_n_n none x0 x1 (constant S2000x512 .f32 0x00000000#32)) (eq_ix2 y)

/-- The printed index maps over the grid: the first operand's and the result's block row is the point, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand's block at point t is rows 2000 t … 2000 t + 1999 of its array. -/
theorem blk0_apply (c : Dev nD) (t : Fin cfg0.N) (y : S2000x1536.Idx) (i : S10000x1536.Idx)
    (h0 : (i 0).val = 2000 * t.val + (y 0).val) (h1 : (i 1).val = (y 1).val) :
    (iblk0 V c 0 t : Vec Ideal S2000x1536 .bf16) y = lhsArr V c i := by
  obtain ⟨e00, e01, -, -, -, -⟩ := idx_facts t
  unfold iblk0
  rw [View.read_apply]
  show V c main_v1 _ = V c main_v1 i
  congr 1
  funext a
  apply Fin.ext
  match a with
  | ⟨0, _⟩ => show win0_0.index t (0 : Fin 2) * 2000 + 1 * (y 0).val = (i 0).val; omega
  | ⟨1, _⟩ => show win0_0.index t (1 : Fin 2) * 1536 + 1 * (y 1).val = (i 1).val; omega

/-- The second operand's block at every point is its whole array. -/
theorem blk1_apply (c : Dev nD) (t : Fin cfg0.N) (y : S1536x512.Idx) :
    (iblk0 V c 1 t : Vec Ideal S1536x512 .bf16) y = rhsArr V c y := by
  obtain ⟨-, -, e10, e11, -, -⟩ := idx_facts t
  unfold iblk0
  rw [View.read_apply]
  show V c main_v3 _ = V c main_v3 y
  congr 1
  funext a
  apply Fin.ext
  match a with
  | ⟨0, _⟩ => show win0_1.index t (0 : Fin 2) * 1536 + 1 * (y 0).val = (y 0).val; omega
  | ⟨1, _⟩ => show win0_1.index t (1 : Fin 2) * 512 + 1 * (y 1).val = (y 1).val; omega

/-- What point t writes back is block t of the product of the two arrays as the region finds them. -/
theorem flushed_eq (c : Dev nD) (t : Fin cfg0.N) :
    (dat0 V c).flushed 2 t = ((cfg0.win 2).blk t).view.read (Elt Ideal) (sup1Arr (lhsArr V c) (rhsArr V c)) := by
  show (cfg0.win 2).cut (grid0.coords t) ((dat0 V c).after 2 t) = _
  rw [after0_2]
  unfold out0_2
  rw [View.canon_unit_zero hz]
  simp only [View.ld_unit_zero (S := S2000x1536) hz, View.ld_unit_zero (S := S1536x512) hz]
  obtain ⟨-, -, -, -, e20, e21⟩ := idx_facts t
  funext j
  show k0_pay1 (iblk0 V c 0 t) (iblk0 V c 1 t) j = sup1Arr (lhsArr V c) (rhsArr V c) (((cfg0.win 2).blk t).view.emb j)
  refine (pay_apply _ _ j).trans ?_
  unfold sup1Arr sup1
  refine Finset.sum_congr rfl fun k _ => ?_
  have hj0 : (j 0).val < 2000 := (j 0).isLt
  have hj1 : (j 1).val < 512 := (j 1).isLt
  have hr : ((((cfg0.win 2).blk t).view.emb j) 0).val = 2000 * t.val + (j 0).val := by
    show win0_2.index t (0 : Fin 2) * 2000 + 1 * (j 0).val = _; omega
  have hc : ((((cfg0.win 2).blk t).view.emb j) 1).val = (j 1).val := by
    show win0_2.index t (1 : Fin 2) * 512 + 1 * (j 1).val = _; omega
  have e1 : (⟨((((cfg0.win 2).blk t).view.emb j) 1).val, ((((cfg0.win 2).blk t).view.emb j) 1).isLt⟩ : Fin 512) = ⟨(j 1).val, hj1⟩ := Fin.ext hc
  rw [blk0_apply V c t _ (ix2 ⟨((((cfg0.win 2).blk t).view.emb j) 0).val, ((((cfg0.win 2).blk t).view.emb j) 0).isLt⟩ k) hr rfl, blk1_apply V c t, e1]

/-- An index of the result array is in point t's block iff each coordinate is in the block's range on its axis. -/
theorem mem_blk (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v5).slice (win0_2.rect t)).set ↔ _
  rw [View.set_slice_whole, Rect.mem_set_unit]
  exact Iff.rfl

/-- The five row blocks tile the result array: row r lies in the block of point r / 2000. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  have ht : (i 0).val / 2000 < cfg0.N := by show _ < 5; omega
  obtain ⟨-, -, -, -, e20, e21⟩ := idx_facts ⟨(i 0).val / 2000, ht⟩
  refine ⟨⟨(i 0).val / 2000, ht⟩, flush0_2 _, ?_⟩
  rw [mem_blk]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [e20]; show (i 0).val / 2000 * 2000 ≤ (i 0).val ∧ (i 0).val < (i 0).val / 2000 * 2000 + 2000; omega
  | ⟨1, _⟩ => show win0_2.index ⟨(i 0).val / 2000, ht⟩ (1 : Fin 2) * 512 ≤ (i 1).val ∧ (i 1).val < win0_2.index ⟨(i 0).val / 2000, ht⟩ (1 : Fin 2) * 512 + 512; rw [e21]; omega

/-- The result array after the region: the product of the two staged arrays. -/
theorem final (c : Dev nD) : (dat0 V c).arrAt 2 cfg0.N = sup1Arr (lhsArr V c) (rhsArr V c) :=
  (dat0 V c).arrAt_eq_of_cover 2 _ (fun t _ => flushed_eq V c t) (cover)

end Cert.KernelIdeal.Support1

end
-- ==== Proof.Support2.lean ====
import proofs.«103336_g25812753449811_cont_sun_m_348_17_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«103336_g25812753449811_cont_sun_m_348_17_alg».proof.Proof.LibPlainDot
import proofs.«103336_g25812753449811_cont_sun_m_348_17_alg».proof.Proof.Spec
set_option maxRecDepth 16384

noncomputable section

namespace Cert.KernelIdeal.Support2
open Cert.KernelIdeal Cert.KernelIdeal.Gen Idealize.ShloMosaic Idealize.ShloMosaic.TcCoe Idealize.SL.Sem
open Idealize.ShloMosaic.Pipeline (Dat)
open Idealize.ShloMosaic.ValueIdx
open Cert.Gcn

variable (V : (c : Dev nD) → (b : Ref sig .tc) → Buf (Elt Ideal) ((c : Thread nD τ).loc b))

/-- The four arrays the region stages, as it finds them, at their literal types: the adjacency matrix, the first support,
    the bias as one row, the second weight matrix. -/
abbrev adjArr (c : Dev nD) : S10000x10000.Idx → EReal := V c main_arg1
abbrev supArr (c : Dev nD) : S10000x512.Idx → EReal := V c main_v5
abbrev biasArr (c : Dev nD) : S1x512.Idx → EReal := V c main_v6
abbrev wArr (c : Dev nD) : S512x7.Idx → EReal := V c main_v4

theorem hz : (![0, 0] : Fin 2 → Nat) = fun _ => 0 := funext fun a => by fin_cases a <;> rfl

/-- The body's stored value at an entry of the block: the roundings are identities at the ideal values, the casts are to
    the same shapes, each product accumulates into zero, and the bias row is broadcast down the rows. -/
theorem pay_apply (x0 : Vec Ideal S400x10000 .f32) (x1 : Vec Ideal S10000x512 .bf16) (x2 : Vec Ideal S1x512 .f32)
    (x3 : Vec Ideal S512x7 .bf16) (y : S400x7.Idx) :
    k1_pay1 x0 x1 x2 x3 y = sup2 x0 x1 x2 x3 ⟨(y 0).val, (y 0).isLt⟩ ⟨(y 1).val, (y 1).isLt⟩ := by
  unfold k1_pay1
  rw [shapeCast_self, shapeCast_self, shapeCast_self]
  refine (PlainDot.matmul_zero_apply_at (φ₁ := .bf16) (φ₂ := .bf16) dot_S400x512_S512x7_S400x7_1_0_0_1_n_n rfl rfl rfl rfl rfl rfl rfl rfl none _ x3 y).trans ?_
  unfold sup2 hid
  refine Finset.sum_congr rfl fun j _ => ?_
  refine congrArg (fun z : EReal => z * x3 (ix2 j ⟨(y 1).val, (y 1).isLt⟩)) ?_
  show max (FloatOps.matmul (F := Ideal) (φ₁ := .bf16) (φ₂ := .bf16) dot_S400x10000_S10000x512_S400x512_1_0_0_1_n_n none x0 x1 (constant S400x512 .f32 0x00000000#32) (ix2 ⟨(y 0).val, (y 0).isLt⟩ j) + broadcastTo S400x512 x2 broadcasts_S1x512_S400x512 (ix2 ⟨(y 0).val, (y 0).isLt⟩ j)) (Ideal.ofBits .f32 0x00000000#32) = _
  rw [PlainDot.matmul_zero_apply (φ₁ := .bf16) (φ₂ := .bf16) dot_S400x10000_S10000x512_S400x512_1_0_0_1_n_n rfl rfl rfl rfl rfl rfl rfl rfl, broadcastTo_1b_ab_apply]

/-- The printed index maps over the grid: the adjacency block's and the result's block row is the point, every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point t is rows 400 t … 400 t + 399 of the matrix. -/
theorem blk0_apply (c : Dev nD) (t : Fin cfg1.N) (y : S400x10000.Idx) (i : S10000x10000.Idx)
    (h0 : (i 0).val = 400 * t.val + (y 0).val) (h1 : (i 1).val = (y 1).val) :
    (iblk1 V c 0 t : Vec Ideal S400x10000 .f32) y = adjArr V c i := by
  obtain ⟨e00, e01, -⟩ := idx_facts t
  unfold iblk1
  rw [View.read_apply]
  show V c main_arg1 _ = V c main_arg1 i
  congr 1
  funext a
  apply Fin.ext
  match a with
  | ⟨0, _⟩ => show win1_0.index t (0 : Fin 2) * 400 + 1 * (y 0).val = (i 0).val; omega
  | ⟨1, _⟩ => show win1_0.index t (1 : Fin 2) * 10000 + 1 * (y 1).val = (i 1).val; omega

/-- The support's block at every point is its whole array. -/
theorem blk1_apply (c : Dev nD) (t : Fin cfg1.N) (y : S10000x512.Idx) :
    (iblk1 V c 1 t : Vec Ideal S10000x512 .bf16) y = supArr V c y := by
  obtain ⟨-, -, e10, e11, -⟩ := idx_facts t
  unfold iblk1
  rw [View.read_apply]
  show V c main_v5 _ = V c main_v5 y
  congr 1
  funext a
  apply Fin.ext
  match a with
  | ⟨0, _⟩ => show win1_1.index t (0 : Fin 2) * 10000 + 1 * (y 0).val = (y 0).val; omega
  | ⟨1, _⟩ => show win1_1.index t (1 : Fin 2) * 512 + 1 * (y 1).val = (y 1).val; omega

/-- The bias row's block at every point is the whole row. -/
theorem blk2_apply (c : Dev nD) (t : Fin cfg1.N) (y : S1x512.Idx) :
    (iblk1 V c 2 t : Vec Ideal S1x512 .f32) y = biasArr V c y := by
  obtain ⟨-, -, -, -, e20, e21, -⟩ := idx_facts t
  unfold iblk1
  rw [View.read_apply]
  show V c main_v6 _ = V c main_v6 y
  congr 1
  funext a
  apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The weight matrix's block at every point is the whole matrix. -/
theorem blk3_apply (c : Dev nD) (t : Fin cfg1.N) (y : S512x7.Idx) :
    (iblk1 V c 3 t : Vec Ideal S512x7 .bf16) y = wArr V c y := by
  obtain ⟨-, -, -, -, -, -, e30, e31, -⟩ := idx_facts t
  unfold iblk1
  rw [View.read_apply]
  show V c main_v4 _ = V c main_v4 y
  congr 1
  funext a
  apply Fin.ext
  match a with
  | ⟨0, _⟩ => show win1_3.index t (0 : Fin 2) * 512 + 1 * (y 0).val = (y 0).val; omega
  | ⟨1, _⟩ => show win1_3.index t (1 : Fin 2) * 7 + 1 * (y 1).val = (y 1).val; omega

/-- Row p of the block at point t has the hidden activations of row 400 t + p of the whole arrays. -/
theorem hid_blk (c : Dev nD) (t : Fin cfg1.N) (p : Fin 400) (r : Fin 10000) (h : r.val = 400 * t.val + p.val) (j : Fin 512) :
    hid (iblk1 V c 0 t : Vec Ideal S400x10000 .f32) (iblk1 V c 1 t : Vec Ideal S10000x512 .bf16) (iblk1 V c 2 t : Vec Ideal S1x512 .f32) p j
      = hid (adjArr V c) (supArr V c) (biasArr V c) r j := by
  unfold hid
  rw [blk2_apply V c t]
  refine congrArg (fun z : EReal => max (z + biasArr V c (ix2 (0 : Fin 1) j)) (Ideal.ofBits .f32 0x00000000#32)) ?_
  refine Finset.sum_congr rfl fun k _ => ?_
  rw [blk0_apply V c t (ix2 p k) (ix2 r k) h rfl, blk1_apply V c t]

/-- What point t writes back is block t of the second support of the arrays as the region finds them. -/
theorem flushed_eq (c : Dev nD) (t : Fin cfg1.N) :
    (dat1 V c).flushed 4 t = ((cfg1.win 4).blk t).view.read (Elt Ideal) (sup2Arr (adjArr V c) (supArr V c) (biasArr V c) (wArr V c)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x512) hz, View.ld_unit_zero (S := S1x512) hz, View.ld_unit_zero (S := S512x7) hz]
  obtain ⟨-, -, -, -, -, -, -, -, e40, e41⟩ := idx_facts t
  funext j
  show k1_pay1 (iblk1 V c 0 t) (iblk1 V c 1 t) (iblk1 V c 2 t) (iblk1 V c 3 t) j = sup2Arr (adjArr V c) (supArr V c) (biasArr V c) (wArr V c) (((cfg1.win 4).blk t).view.emb j)
  refine (pay_apply _ _ _ _ j).trans ?_
  have hj0 : (j 0).val < 400 := (j 0).isLt
  have hj1 : (j 1).val < 7 := (j 1).isLt
  have hr : ((((cfg1.win 4).blk t).view.emb j) 0).val = 400 * t.val + (j 0).val := by
    show win1_4.index t (0 : Fin 2) * 400 + 1 * (j 0).val = _; omega
  have hc : ((((cfg1.win 4).blk t).view.emb j) 1).val = (j 1).val := by
    show win1_4.index t (1 : Fin 2) * 7 + 1 * (j 1).val = _; omega
  have e1 : (⟨((((cfg1.win 4).blk t).view.emb j) 1).val, ((((cfg1.win 4).blk t).view.emb j) 1).isLt⟩ : Fin 7) = ⟨(j 1).val, hj1⟩ := Fin.ext hc
  unfold sup2Arr sup2
  rw [e1]
  refine Finset.sum_congr rfl fun jj _ => ?_
  rw [hid_blk V c t ⟨(j 0).val, hj0⟩ ⟨((((cfg1.win 4).blk t).view.emb j) 0).val, ((((cfg1.win 4).blk t).view.emb j) 0).isLt⟩ hr jj, blk3_apply V c t]

/-- An index of the result array is in point t's block iff each coordinate is in the block's range on its axis. -/
theorem mem_blk (t : Fin cfg1.N) (i : S10000x7.Idx) :
    i ∈ ((cfg1.win 4).blk t).view.set ↔ ∀ a : Fin 2, win1_4.index t a * S400x7.size a ≤ (i a).val ∧ (i a).val < win1_4.index t a * S400x7.size a + S400x7.size a := by
  show i ∈ ((View.whole main_v7).slice (win1_4.rect t)).set ↔ _
  rw [View.set_slice_whole, Rect.mem_set_unit]
  exact Iff.rfl

/-- The twenty-five row blocks tile the result array: row r lies in the block of point r / 400. -/
theorem cover (i : S10000x7.Idx) : ∃ t : Fin cfg1.N, (cfg1.win 4).flush t = true ∧ i ∈ ((cfg1.win 4).blk t).view.set := by
  have hi0 : (i 0).val < 10000 := (i 0).isLt
  have hi1 : (i 1).val < 7 := (i 1).isLt
  have ht : (i 0).val / 400 < cfg1.N := by show _ < 25; omega
  obtain ⟨-, -, -, -, -, -, -, -, e40, e41⟩ := idx_facts ⟨(i 0).val / 400, ht⟩
  refine ⟨⟨(i 0).val / 400, ht⟩, flush1_4 _, ?_⟩
  rw [mem_blk]
  intro a
  match a with
  | ⟨0, _⟩ => show win1_4.index ⟨(i 0).val / 400, ht⟩ (0 : Fin 2) * 400 ≤ (i 0).val ∧ (i 0).val < win1_4.index ⟨(i 0).val / 400, ht⟩ (0 : Fin 2) * 400 + 400; rw [e40]; show (i 0).val / 400 * 400 ≤ (i 0).val ∧ (i 0).val < (i 0).val / 400 * 400 + 400; omega
  | ⟨1, _⟩ => show win1_4.index ⟨(i 0).val / 400, ht⟩ (1 : Fin 2) * 7 ≤ (i 1).val ∧ (i 1).val < win1_4.index ⟨(i 0).val / 400, ht⟩ (1 : Fin 2) * 7 + 7; rw [e41]; omega

/-- The result array after the region: the second support of the four staged arrays. -/
theorem final (c : Dev nD) : (dat1 V c).arrAt 4 cfg1.N = sup2Arr (adjArr V c) (supArr V c) (biasArr V c) (wArr V c) :=
  (dat1 V c).arrAt_eq_of_cover 4 _ (fun t _ => flushed_eq V c t) (cover)

end Cert.KernelIdeal.Support2

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.Softmax.lean ====
import proofs.«103336_g25812753449811_cont_sun_m_348_17_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«103336_g25812753449811_cont_sun_m_348_17_alg».proof.Proof.LibPlainDot
import proofs.«103336_g25812753449811_cont_sun_m_348_17_alg».proof.Proof.Spec
import proofs.«103336_g25812753449811_cont_sun_m_348_17_alg».proof.Proof.LibColumn
set_option maxRecDepth 16384

noncomputable section

namespace Cert.KernelIdeal.Softmax
open Cert.KernelIdeal Cert.KernelIdeal.Gen Idealize.ShloMosaic Idealize.ShloMosaic.TcCoe Idealize.SL.Sem
open Idealize.ShloMosaic.Pipeline (Dat)
open Idealize.ShloMosaic.ValueIdx
open Cert.Gcn

variable (V : (c : Dev nD) → (b : Ref sig .tc) → Buf (Elt Ideal) ((c : Thread nD τ).loc b))

/-- The three arrays the region stages, as it finds them, at their literal types: the adjacency matrix, the second
    support, the class bias as one row. -/
abbrev adjArr (c : Dev nD) : S10000x10000.Idx → EReal := V c main_arg1
abbrev supArr (c : Dev nD) : S10000x7.Idx → EReal := V c main_v7
abbrev biasArr (c : Dev nD) : S1x7.Idx → EReal := V c main_v8

theorem hz : (![0, 0] : Fin 2 → Nat) = fun _ => 0 := funext fun a => by fin_cases a <;> rfl

/-- The body's logits at an entry of the block. -/
theorem logits_apply (x0 : Vec Ideal S400x10000 .f32) (x1 : Vec Ideal S10000x7 .bf16) (x2 : Vec Ideal S1x7 .f32) (p : Fin 400) (q : Fin 7) :
    (addf (matmul (F := Ideal) (φ₁ := .bf16) (φ₂ := .bf16) dot_S400x10000_S10000x7_S400x7_1_0_0_1_n_n none x0 x1 (constant S400x7 .f32 0x00000000#32))
      (broadcastTo S400x7 x2 broadcasts_S1x7_S400x7) : FVec Ideal S400x7 .f32) (ix2 p q) = logit x0 x1 x2 p q := by
  show FloatOps.matmul (F := Ideal) (φ₁ := .bf16) (φ₂ := .bf16) dot_S400x10000_S10000x7_S400x7_1_0_0_1_n_n none x0 x1 (constant S400x7 .f32 0x00000000#32) (ix2 p q) + broadcastTo S400x7 x2 broadcasts_S1x7_S400x7 (ix2 p q) = _
  rw [PlainDot.matmul_zero_apply (φ₁ := .bf16) (φ₂ := .bf16) dot_S400x10000_S10000x7_S400x7_1_0_0_1_n_n rfl rfl rfl rfl rfl rfl rfl rfl, broadcastTo_1b_ab_apply]
  rfl

/-- Inserting class q on the dropped axis of a row index gives the entry (p, q). -/
theorem lift_eq (p : Fin 400) (q : Fin 7) : reduces_S400x7_S400.lift (ix1 p) q = ix2 p q :=
  funext fun a => Fin.ext (by match a with | ⟨0, _⟩ => rfl | ⟨1, _⟩ => rfl)

/-- The normalised exponentials of the rows of a [400, 7] array, as the body computes them from its logits: the row's
    maximum and the row's sum each taken as a vector, set as a column and broadcast back over the seven classes. -/
def rowSoftmax (lg : FVec Ideal S400x7 .f32) : FVec Ideal S400x7 .f32 :=
  divf (exp (subf lg (broadcastTo S400x7 (shapeCast S400x1 (multiReduction .maximumf [1] S400 lg 0xFF800000#32 reduces_S400x7_S400 (.inl rfl) rfl) shapeCasts_S400_S400x1) broadcasts_S400x1_S400x7)))
    (broadcastTo S400x7 (shapeCast S400x1 (multiReduction .add [1] S400 (exp (subf lg (broadcastTo S400x7 (shapeCast S400x1 (multiReduction .maximumf [1] S400 lg 0xFF800000#32 reduces_S400x7_S400 (.inl rfl) rfl) shapeCasts_S400_S400x1) broadcasts_S400x1_S400x7))) 0x00000000#32 reduces_S400x7_S400 (.inl rfl) rfl) shapeCasts_S400_S400x1) broadcasts_S400x1_S400x7)

/-- Those at an entry: the exponential of the entry less its row's maximum, over the sum of the row's seven. -/
theorem rowSoftmax_apply (lg : FVec Ideal S400x7 .f32) (p : Fin 400) (q : Fin 7) :
    rowSoftmax lg (ix2 p q)
      = Ideal.div (Ideal.exp (lg (ix2 p q) - (Finset.univ : Finset (Fin 7)).fold max (Ideal.ofBits .f32 0xFF800000#32) (fun q' => lg (ix2 p q'))))
          (∑ q'' : Fin 7, Ideal.exp (lg (ix2 p q'') - (Finset.univ : Finset (Fin 7)).fold max (Ideal.ofBits .f32 0xFF800000#32) (fun q' => lg (ix2 p q')))) := by
  have hmax : ∀ c : Fin 7, broadcastTo S400x7 (shapeCast S400x1 (multiReduction .maximumf [1] S400 lg 0xFF800000#32 reduces_S400x7_S400 (.inl rfl) rfl) shapeCasts_S400_S400x1) broadcasts_S400x1_S400x7 (ix2 p c)
      = (Finset.univ : Finset (Fin 7)).fold max (Ideal.ofBits .f32 0xFF800000#32) (fun q' => lg (ix2 p q')) := fun c => by
    rw [Column.keepdims_apply]
    refine (Ideal.multiReduction_maximumf_single lg _ reduces_S400x7_S400 _ _ (ix1 p)).trans ?_
    exact congrArg (fun f => Finset.fold max (Ideal.ofBits .f32 0xFF800000#32) f Finset.univ) (funext fun q' => congrArg lg (lift_eq p q'))
  unfold rowSoftmax
  show Ideal.div (Ideal.exp (lg (ix2 p q) - _)) _ = _
  rw [hmax q, Column.keepdims_apply]
  refine congrArg (Ideal.div _) ?_
  refine (Ideal.multiReduction_add_single _ _ reduces_S400x7_S400 _ _ (ix1 p)).trans ?_
  refine Finset.sum_congr rfl fun c _ => ?_
  rw [lift_eq p c]
  show Ideal.exp (lg (ix2 p c) - _) = _
  rw [hmax c]

/-- The body's stored value at an entry of the block: the class probability of the block's row. -/
theorem pay_apply (x0 : Vec Ideal S400x10000 .f32) (x1 : Vec Ideal S10000x7 .bf16) (x2 : Vec Ideal S1x7 .f32) (y : S400x7.Idx) :
    k2_pay1 x0 x1 x2 y = prob x0 x1 x2 ⟨(y 0).val, (y 0).isLt⟩ ⟨(y 1).val, (y 1).isLt⟩ := by
  unfold k2_pay1
  rw [shapeCast_self, shapeCast_self]
  refine (congrArg (rowSoftmax (addf (matmul (F := Ideal) (φ₁ := .bf16) (φ₂ := .bf16) dot_S400x10000_S10000x7_S400x7_1_0_0_1_n_n none x0 x1 (constant S400x7 .f32 0x00000000#32)) (broadcastTo S400x7 x2 broadcasts_S1x7_S400x7))) (eq_ix2 y)).trans ?_
  refine (rowSoftmax_apply _ ⟨(y 0).val, (y 0).isLt⟩ ⟨(y 1).val, (y 1).isLt⟩).trans ?_
  unfold prob expo rowMax
  simp only [logits_apply]

/-- The printed index maps over the grid: the adjacency block's and the result's block row is the point, every
    other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The adjacency block at point t is rows 400 t … 400 t + 399 of the matrix. -/
theorem blk0_apply (c : Dev nD) (t : Fin cfg2.N) (y : S400x10000.Idx) (i : S10000x10000.Idx)
    (h0 : (i 0).val = 400 * t.val + (y 0).val) (h1 : (i 1).val = (y 1).val) :
    (iblk2 V c 0 t : Vec Ideal S400x10000 .f32) y = adjArr V c i := by
  obtain ⟨e00, e01, -⟩ := idx_facts t
  unfold iblk2
  rw [View.read_apply]
  show V c main_arg1 _ = V c main_arg1 i
  congr 1
  funext a
  apply Fin.ext
  match a with
  | ⟨0, _⟩ => show win2_0.index t (0 : Fin 2) * 400 + 1 * (y 0).val = (i 0).val; omega
  | ⟨1, _⟩ => show win2_0.index t (1 : Fin 2) * 10000 + 1 * (y 1).val = (i 1).val; omega

/-- The support's block at every point is its whole array. -/
theorem blk1_apply (c : Dev nD) (t : Fin cfg2.N) (y : S10000x7.Idx) :
    (iblk2 V c 1 t : Vec Ideal S10000x7 .bf16) y = supArr V c y := by
  obtain ⟨-, -, e10, e11, -⟩ := idx_facts t
  unfold iblk2
  rw [View.read_apply]
  show V c main_v7 _ = V c main_v7 y
  congr 1
  funext a
  apply Fin.ext
  match a with
  | ⟨0, _⟩ => show win2_1.index t (0 : Fin 2) * 10000 + 1 * (y 0).val = (y 0).val; omega
  | ⟨1, _⟩ => show win2_1.index t (1 : Fin 2) * 7 + 1 * (y 1).val = (y 1).val; omega

/-- The bias row's block at every point is the whole row. -/
theorem blk2_apply (c : Dev nD) (t : Fin cfg2.N) (y : S1x7.Idx) :
    (iblk2 V c 2 t : Vec Ideal S1x7 .f32) y = biasArr V c y := by
  obtain ⟨-, -, -, -, e20, e21, -⟩ := idx_facts t
  unfold iblk2
  rw [View.read_apply]
  show V c main_v8 _ = V c main_v8 y
  congr 1
  funext a
  apply Fin.ext
  match a with
  | ⟨0, _⟩ => show win2_2.index t (0 : Fin 2) * 1 + 1 * (y 0).val = (y 0).val; omega
  | ⟨1, _⟩ => show win2_2.index t (1 : Fin 2) * 7 + 1 * (y 1).val = (y 1).val; omega

/-- Row p of the block at point t has the logits of row 400 t + p of the whole arrays. -/
theorem logit_blk (c : Dev nD) (t : Fin cfg2.N) (p : Fin 400) (r : Fin 10000) (h : r.val = 400 * t.val + p.val) (q : Fin 7) :
    logit (iblk2 V c 0 t : Vec Ideal S400x10000 .f32) (iblk2 V c 1 t : Vec Ideal S10000x7 .bf16) (iblk2 V c 2 t : Vec Ideal S1x7 .f32) p q
      = logit (adjArr V c) (supArr V c) (biasArr V c) r q := by
  unfold logit
  rw [blk2_apply V c t]
  refine congrArg (fun z : EReal => z + biasArr V c (ix2 (0 : Fin 1) q)) ?_
  refine Finset.sum_congr rfl fun k _ => ?_
  rw [blk0_apply V c t (ix2 p k) (ix2 r k) h rfl, blk1_apply V c t]

/-- … and so the class probabilities of that row. -/
theorem prob_blk (c : Dev nD) (t : Fin cfg2.N) (p : Fin 400) (r : Fin 10000) (h : r.val = 400 * t.val + p.val) (q : Fin 7) :
    prob (iblk2 V c 0 t : Vec Ideal S400x10000 .f32) (iblk2 V c 1 t : Vec Ideal S10000x7 .bf16) (iblk2 V c 2 t : Vec Ideal S1x7 .f32) p q
      = prob (adjArr V c) (supArr V c) (biasArr V c) r q := by
  unfold prob expo rowMax
  simp only [logit_blk V c t p r h]

/-- What point t writes back is block t of the class probabilities of the arrays as the region finds them. -/
theorem flushed_eq (c : Dev nD) (t : Fin cfg2.N) :
    (dat2 V c).flushed 3 t = ((cfg2.win 3).blk t).view.read (Elt Ideal) (probArr (adjArr V c) (supArr V c) (biasArr V c)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x7) hz, View.ld_unit_zero (S := S1x7) hz]
  obtain ⟨-, -, -, -, -, -, e30, e31⟩ := idx_facts t
  funext j
  show k2_pay1 (iblk2 V c 0 t) (iblk2 V c 1 t) (iblk2 V c 2 t) j = probArr (adjArr V c) (supArr V c) (biasArr V c) (((cfg2.win 3).blk t).view.emb j)
  refine (pay_apply _ _ _ j).trans ?_
  have hj0 : (j 0).val < 400 := (j 0).isLt
  have hj1 : (j 1).val < 7 := (j 1).isLt
  have hr : ((((cfg2.win 3).blk t).view.emb j) 0).val = 400 * t.val + (j 0).val := by
    show win2_3.index t (0 : Fin 2) * 400 + 1 * (j 0).val = _; omega
  have hc : ((((cfg2.win 3).blk t).view.emb j) 1).val = (j 1).val := by
    show win2_3.index t (1 : Fin 2) * 7 + 1 * (j 1).val = _; omega
  have e1 : (⟨((((cfg2.win 3).blk t).view.emb j) 1).val, ((((cfg2.win 3).blk t).view.emb j) 1).isLt⟩ : Fin 7) = ⟨(j 1).val, hj1⟩ := Fin.ext hc
  unfold probArr
  rw [e1]
  exact prob_blk V c t ⟨(j 0).val, hj0⟩ ⟨((((cfg2.win 3).blk t).view.emb j) 0).val, ((((cfg2.win 3).blk t).view.emb j) 0).isLt⟩ hr ⟨(j 1).val, hj1⟩

/-- An index of the result array is in point t's block iff each coordinate is in the block's range on its axis. -/
theorem mem_blk (t : Fin cfg2.N) (i : S10000x7.Idx) :
    i ∈ ((cfg2.win 3).blk t).view.set ↔ ∀ a : Fin 2, win2_3.index t a * S400x7.size a ≤ (i a).val ∧ (i a).val < win2_3.index t a * S400x7.size a + S400x7.size a := by
  show i ∈ ((View.whole main_v9).slice (win2_3.rect t)).set ↔ _
  rw [View.set_slice_whole, Rect.mem_set_unit]
  exact Iff.rfl

/-- The twenty-five row blocks tile the result array: row r lies in the block of point r / 400. -/
theorem cover (i : S10000x7.Idx) : ∃ t : Fin cfg2.N, (cfg2.win 3).flush t = true ∧ i ∈ ((cfg2.win 3).blk t).view.set := by
  have hi0 : (i 0).val < 10000 := (i 0).isLt
  have hi1 : (i 1).val < 7 := (i 1).isLt
  have ht : (i 0).val / 400 < cfg2.N := by show _ < 25; omega
  obtain ⟨-, -, -, -, -, -, e30, e31⟩ := idx_facts ⟨(i 0).val / 400, ht⟩
  refine ⟨⟨(i 0).val / 400, ht⟩, flush2_3 _, ?_⟩
  rw [mem_blk]
  intro a
  match a with
  | ⟨0, _⟩ => show win2_3.index ⟨(i 0).val / 400, ht⟩ (0 : Fin 2) * 400 ≤ (i 0).val ∧ (i 0).val < win2_3.index ⟨(i 0).val / 400, ht⟩ (0 : Fin 2) * 400 + 400; rw [e30]; show (i 0).val / 400 * 400 ≤ (i 0).val ∧ (i 0).val < (i 0).val / 400 * 400 + 400; omega
  | ⟨1, _⟩ => show win2_3.index ⟨(i 0).val / 400, ht⟩ (1 : Fin 2) * 7 ≤ (i 1).val ∧ (i 1).val < win2_3.index ⟨(i 0).val / 400, ht⟩ (1 : Fin 2) * 7 + 7; rw [e31]; omega

/-- The result array after the region: the class probabilities of the three staged arrays. -/
theorem final (c : Dev nD) : (dat2 V c).arrAt 3 cfg2.N = probArr (adjArr V c) (supArr V c) (biasArr V c) :=
  (dat2 V c).arrAt_eq_of_cover 3 _ (fun t _ => flushed_eq V c t) (cover)

end Cert.KernelIdeal.Softmax

end
-- ==== Proof.KernelValue.lean ====
import proofs.«103336_g25812753449811_cont_sun_m_348_17_alg».proof.Proof.Gen.KernelIdeal.Frame
import proofs.«103336_g25812753449811_cont_sun_m_348_17_alg».proof.Proof.Spec
import proofs.«103336_g25812753449811_cont_sun_m_348_17_alg».proof.Proof.Support1
import proofs.«103336_g25812753449811_cont_sun_m_348_17_alg».proof.Proof.Support2
import proofs.«103336_g25812753449811_cont_sun_m_348_17_alg».proof.Proof.Softmax
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo
open Cert.Gcn

variable (m : (ℓ : Loc nD τ sig) → Buf (Elt Ideal) ℓ) (ρ : Dev nD → PrngReg)

/-- Reads a buffer through the five host stretches before the first region, down to the launch memory. -/
macro "walk_first_stretches" : tactic =>
  `(tactic| (dsimp only [W5, W4, W3, W2, W1, hostOps0, hostOps0_1, hostOps0_2, hostOps0_3, hostOps0_4]; after_results))

/-! ## The argument arrays at the boundaries where a region or a host operation reads them

No host operation and no region writes an argument, so at every boundary an argument's buffer holds its launch contents. -/

theorem W5_arg1 (c : Dev nD) : W5 m ρ c (Proc.devRef .tc main_arg1) = m ((c : Thread nD τ).loc main_arg1) := by walk_first_stretches
theorem W5_arg3 (c : Dev nD) : W5 m ρ c (Proc.devRef .tc main_arg3) = m ((c : Thread nD τ).loc main_arg3) := by walk_first_stretches
theorem W5_arg5 (c : Dev nD) : W5 m ρ c (Proc.devRef .tc main_arg5) = m ((c : Thread nD τ).loc main_arg5) := by walk_first_stretches

theorem W6_arg3 (c : Dev nD) : W6 m ρ c (Proc.devRef .tc main_arg3) = m ((c : Thread nD τ).loc main_arg3) :=
  (W6_of_ne m ρ c main_arg3 (by decide)).trans (W5_arg3 m ρ c)

theorem W7_arg1 (c : Dev nD) : W7 m ρ c (Proc.devRef .tc main_arg1) = m ((c : Thread nD τ).loc main_arg1) := by
  have h7 : W7 m ρ c (Proc.devRef .tc main_arg1) = W6 m ρ c (Proc.devRef .tc main_arg1) := by
    dsimp only [W7, hostOps1]; after_results
  exact h7.trans ((W6_of_ne m ρ c main_arg1 (by decide)).trans (W5_arg1 m ρ c))

theorem W8_arg5 (c : Dev nD) : W8 m ρ c (Proc.devRef .tc main_arg5) = m ((c : Thread nD τ).loc main_arg5) := by
  have h7 : W7 m ρ c (Proc.devRef .tc main_arg5) = W6 m ρ c (Proc.devRef .tc main_arg5) := by
    dsimp only [W7, hostOps1]; after_results
  exact (W8_of_ne m ρ c main_arg5 (by decide)).trans (h7.trans ((W6_of_ne m ρ c main_arg5 (by decide)).trans (W5_arg5 m ρ c)))

theorem W9_arg1 (c : Dev nD) : W9 m ρ c (Proc.devRef .tc main_arg1) = m ((c : Thread nD τ).loc main_arg1) := by
  have h9 : W9 m ρ c (Proc.devRef .tc main_arg1) = W8 m ρ c (Proc.devRef .tc main_arg1) := by
    dsimp only [W9, hostOps2]; after_results
  have h8 : W8 m ρ c (Proc.devRef .tc main_arg1) = W7 m ρ c (Proc.devRef .tc main_arg1) :=
    (W8_arr m ρ c 0).trans (((dat1 (V7 m ρ) c).arrAt_in 0 rfl _).trans (A_eq1 (V7 m ρ) c 0))
  exact h9.trans (h8.trans (W7_arg1 m ρ c))

/-! ## What the first region stages: the two padded operands -/

/-- The first operand at the first region's entry is x with 103 zero columns appended (the rounding to the narrower
    format is the identity at the ideal values, and the padding value is the integer zero converted). -/
theorem padded_x (c : Dev nD) (r : Fin 10000) (k : Fin 1536) :
    Support1.lhsArr (V5 m ρ) c (ix2 r k)
      = (if h : k.val < 1433 then (m ((c : Thread nD τ).loc main_arg0) : Mat 10000 1433) (ix2 r ⟨k.val, h⟩) else 0 : EReal) := by
  have e : W5 m ρ c (Proc.devRef .tc main_v1)
      = (truncf .bf16 (pad S10000x1536 ![0, 0] ![0, 103] ![0, 0] (m ((c : Thread nD τ).loc main_arg0) : FVec Ideal S10000x1433 .f32) (sitofp (F := Ideal) .f32 (constantI S_ 32 0#32)) pads_S10000x1433_S10000x1536_000_01030 h_S_ : FVec Ideal S10000x1536 .f32) bitsLt_bf16_f32 : FVec Ideal S10000x1536 .bf16) := by
    walk_first_stretches
    try rfl
  refine (congrFun e (ix2 r k)).trans ?_
  show pad S10000x1536 ![0, 0] ![0, 103] ![0, 0] (m ((c : Thread nD τ).loc main_arg0) : FVec Ideal S10000x1433 .f32) (sitofp (F := Ideal) .f32 (constantI S_ 32 0#32)) pads_S10000x1433_S10000x1536_000_01030 h_S_ (ix2 r k) = _
  by_cases h : k.val < 1433
  · rw [dif_pos h]
    exact pad_apply_of_inside _ _ _ _ _ pads_S10000x1433_S10000x1536_000_01030 h_S_ (ix2 r k) (ix2 r ⟨k.val, h⟩) fun a => by
      match a with
      | ⟨0, _⟩ => show r.val = 0 + r.val * (0 + 1); omega
      | ⟨1, _⟩ => show k.val = 0 + k.val * (0 + 1); omega
  · rw [dif_neg h]
    refine (pad_apply_of_not_inside _ _ _ _ _ pads_S10000x1433_S10000x1536_000_01030 h_S_ (ix2 r k) (1 : Fin 2) ?_).trans ?_
    · show ¬(0 ≤ k.val ∧ (k.val - 0) % (0 + 1) = 0 ∧ (k.val - 0) / (0 + 1) < 1433); omega
    · show ((((0#32 : BitVec 32).toInt : ℝ)) : EReal) = 0
      simp

/-- The second operand at the first region's entry is W₁ with 103 zero rows appended. -/
theorem padded_w (c : Dev nD) (k : Fin 1536) (j : Fin 512) :
    Support1.rhsArr (V5 m ρ) c (ix2 k j)
      = (if h : k.val < 1433 then (m ((c : Thread nD τ).loc main_arg2) : Mat 1433 512) (ix2 ⟨k.val, h⟩ j) else 0 : EReal) := by
  have e : W5 m ρ c (Proc.devRef .tc main_v3)
      = (truncf .bf16 (pad S1536x512 ![0, 0] ![103, 0] ![0, 0] (m ((c : Thread nD τ).loc main_arg2) : FVec Ideal S1433x512 .f32) (sitofp (F := Ideal) .f32 (constantI S_ 32 0#32)) pads_S1433x512_S1536x512_01030_000 h_S_ : FVec Ideal S1536x512 .f32) bitsLt_bf16_f32 : FVec Ideal S1536x512 .bf16) := by
    walk_first_stretches
    try rfl
  refine (congrFun e (ix2 k j)).trans ?_
  show pad S1536x512 ![0, 0] ![103, 0] ![0, 0] (m ((c : Thread nD τ).loc main_arg2) : FVec Ideal S1433x512 .f32) (sitofp (F := Ideal) .f32 (constantI S_ 32 0#32)) pads_S1433x512_S1536x512_01030_000 h_S_ (ix2 k j) = _
  by_cases h : k.val < 1433
  · rw [dif_pos h]
    exact pad_apply_of_inside _ _ _ _ _ pads_S1433x512_S1536x512_01030_000 h_S_ (ix2 k j) (ix2 ⟨k.val, h⟩ j) fun a => by
      match a with
      | ⟨0, _⟩ => show k.val = 0 + k.val * (0 + 1); omega
      | ⟨1, _⟩ => show j.val = 0 + j.val * (0 + 1); omega
  · rw [dif_neg h]
    refine (pad_apply_of_not_inside _ _ _ _ _ pads_S1433x512_S1536x512_01030_000 h_S_ (ix2 k j) (0 : Fin 2) ?_).trans ?_
    · show ¬(0 ≤ k.val ∧ (k.val - 0) % (0 + 1) = 0 ∧ (k.val - 0) / (0 + 1) < 1433); omega
    · show ((((0#32 : BitVec 32).toInt : ℝ)) : EReal) = 0
      simp

/-- So the first region's result is the first support of x and W₁: the padding law. -/
theorem first_support (c : Dev nD) :
    sup1Arr (Support1.lhsArr (V5 m ρ) c) (Support1.rhsArr (V5 m ρ) c)
      = sup1Arr (m ((c : Thread nD τ).loc main_arg0) : Mat 10000 1433) (m ((c : Thread nD τ).loc main_arg2) : Mat 1433 512) :=
  funext fun i => sup1_padded _ _ _ _ (padded_x m ρ c) (padded_w m ρ c) _ _

/-! ## What the second region stages -/

theorem adj7 (c : Dev nD) : Support2.adjArr (V7 m ρ) c = m ((c : Thread nD τ).loc main_arg1) := W7_arg1 m ρ c

/-- The first support is what the first region left. -/
theorem sup7 (c : Dev nD) : Support2.supArr (V7 m ρ) c = sup1Arr (Support1.lhsArr (V5 m ρ) c) (Support1.rhsArr (V5 m ρ) c) := by
  have h7 : W7 m ρ c (Proc.devRef .tc main_v5) = W6 m ρ c (Proc.devRef .tc main_v5) := by
    dsimp only [W7, hostOps1]; after_results
  exact h7.trans ((W6_arr m ρ c 2).trans (Support1.final (V5 m ρ) c))

/-- The first bias, reshaped to one row. -/
theorem bias7 (c : Dev nD) : Support2.biasArr (V7 m ρ) c = rowOf (m ((c : Thread nD τ).loc main_arg3)) := by
  have e : W7 m ρ c (Proc.devRef .tc main_v6) = fun i => shapeCast S1x512 (W6 m ρ c (Proc.devRef .tc main_arg3)) shapeCasts_S512_S1x512 i := by
    dsimp only [W7, hostOps1]; after_results
    try rfl
  show W7 m ρ c (Proc.devRef .tc main_v6) = _
  rw [e, W6_arg3]
  funext i
  obtain ⟨u, j, rfl⟩ : ∃ (u : Fin 1) (j : Fin 512), i = ix2 u j := ⟨i 0, i 1, eq_ix2 i⟩
  exact shapeCast_a_1a_apply _ _ u j

/-- The second weight matrix (its rounding to the narrower format is the identity at the ideal values). -/
theorem w7 (c : Dev nD) : Support2.wArr (V7 m ρ) c = m ((c : Thread nD τ).loc main_arg4) := by
  have h7 : W7 m ρ c (Proc.devRef .tc main_v4) = W6 m ρ c (Proc.devRef .tc main_v4) := by
    dsimp only [W7, hostOps1]; after_results
  have h5 : W5 m ρ c (Proc.devRef .tc main_v4) = (truncf .bf16 (m ((c : Thread nD τ).loc main_arg4) : FVec Ideal S512x7 .f32) bitsLt_bf16_f32 : FVec Ideal S512x7 .bf16) := by
    walk_first_stretches
    try rfl
  exact h7.trans ((W6_of_ne m ρ c main_v4 (by decide)).trans (h5.trans rfl))

/-! ## What the third region stages -/

theorem adj9 (c : Dev nD) : Softmax.adjArr (V9 m ρ) c = m ((c : Thread nD τ).loc main_arg1) := W9_arg1 m ρ c

/-- The second support is what the second region left. -/
theorem sup9 (c : Dev nD) : Softmax.supArr (V9 m ρ) c
    = sup2Arr (Support2.adjArr (V7 m ρ) c) (Support2.supArr (V7 m ρ) c) (Support2.biasArr (V7 m ρ) c) (Support2.wArr (V7 m ρ) c) := by
  have h9 : W9 m ρ c (Proc.devRef .tc main_v7) = W8 m ρ c (Proc.devRef .tc main_v7) := by
    dsimp only [W9, hostOps2]; after_results
  exact h9.trans ((W8_arr m ρ c 4).trans (Support2.final (V7 m ρ) c))

/-- The class bias, reshaped to one row. -/
theorem bias9 (c : Dev nD) : Softmax.biasArr (V9 m ρ) c = rowOf (m ((c : Thread nD τ).loc main_arg5)) := by
  have e : W9 m ρ c (Proc.devRef .tc main_v8) = fun i => shapeCast S1x7 (W8 m ρ c (Proc.devRef .tc main_arg5)) shapeCasts_S7_S1x7 i := by
    dsimp only [W9, hostOps2]; after_results
    try rfl
  show W9 m ρ c (Proc.devRef .tc main_v8) = _
  rw [e, W8_arg5]
  funext i
  obtain ⟨u, q, rfl⟩ : ∃ (u : Fin 1) (q : Fin 7), i = ix2 u q := ⟨i 0, i 1, eq_ix2 i⟩
  exact shapeCast_a_1a_apply _ _ u q

/-! ## The result buffer at the last boundary -/

/-- THE KERNEL'S VALUE: after the third region the result buffer holds the class probabilities of the specification, as one
    function of the six argument arrays. -/
theorem value (c : Dev nD) : W10 m ρ c (Proc.devRef .tc main_v9)
    = probArr (m ((c : Thread nD τ).loc main_arg1))
        (sup2Arr (m ((c : Thread nD τ).loc main_arg1)) (sup1Arr (m ((c : Thread nD τ).loc main_arg0) : Mat 10000 1433) (m ((c : Thread nD τ).loc main_arg2) : Mat 1433 512))
          (rowOf (m ((c : Thread nD τ).loc main_arg3))) (m ((c : Thread nD τ).loc main_arg4)))
        (rowOf (m ((c : Thread nD τ).loc main_arg5))) := by
  refine ((W10_arr m ρ c 3).trans (Softmax.final (V9 m ρ) c)).trans ?_
  rw [adj9 m ρ c, bias9 m ρ c, sup9 m ρ c, adj7 m ρ c, bias7 m ρ c, w7 m ρ c, sup7 m ρ c, first_support m ρ c]

end Cert.KernelIdeal.Fold

end
-- ==== Proof.RefValue.lean ====
import proofs.«103336_g25812753449811_cont_sun_m_348_17_alg».proof.Proof.Gen.ReferenceIdeal.Read
import proofs.«103336_g25812753449811_cont_sun_m_348_17_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx
open Cert.Gcn

variable (x : Mat 10000 1433) (adj : Mat 10000 10000) (w1 : Mat 1433 512) (b1 : (⟨1, ![512]⟩ : Shape).Idx → EReal)
  (w2 : Mat 512 7) (b2 : (⟨1, ![7]⟩ : Shape).Idx → EReal)

/-! ## The operand indices of the four products and the two sums are the entries one expects -/

theorem lidx0 (r : Fin 10000) (q : Fin 512) (k : Fin 1433) : lidx_main_v0 (ix2 r q) k = ix2 r k :=
  funext fun a => by match a with | ⟨0, _⟩ => rfl | ⟨1, _⟩ => rfl
theorem ridx0 (r : Fin 10000) (q : Fin 512) (k : Fin 1433) : ridx_main_v0 (ix2 r q) k = ix2 k q :=
  funext fun a => by match a with | ⟨0, _⟩ => rfl | ⟨1, _⟩ => rfl
theorem lidx1 (r : Fin 10000) (q : Fin 512) (k : Fin 10000) : lidx_main_v1 (ix2 r q) k = ix2 r k :=
  funext fun a => by match a with | ⟨0, _⟩ => rfl | ⟨1, _⟩ => rfl
theorem ridx1 (r : Fin 10000) (q : Fin 512) (k : Fin 10000) : ridx_main_v1 (ix2 r q) k = ix2 k q :=
  funext fun a => by match a with | ⟨0, _⟩ => rfl | ⟨1, _⟩ => rfl
theorem lidx6 (r : Fin 10000) (q : Fin 7) (k : Fin 512) : lidx_main_v6 (ix2 r q) k = ix2 r k :=
  funext fun a => by match a with | ⟨0, _⟩ => rfl | ⟨1, _⟩ => rfl
theorem ridx6 (r : Fin 10000) (q : Fin 7) (k : Fin 512) : ridx_main_v6 (ix2 r q) k = ix2 k q :=
  funext fun a => by match a with | ⟨0, _⟩ => rfl | ⟨1, _⟩ => rfl
theorem lidx7 (r : Fin 10000) (q : Fin 7) (k : Fin 10000) : lidx_main_v7 (ix2 r q) k = ix2 r k :=
  funext fun a => by match a with | ⟨0, _⟩ => rfl | ⟨1, _⟩ => rfl
theorem ridx7 (r : Fin 10000) (q : Fin 7) (k : Fin 10000) : ridx_main_v7 (ix2 r q) k = ix2 k q :=
  funext fun a => by match a with | ⟨0, _⟩ => rfl | ⟨1, _⟩ => rfl

/-! ## The first support -/

/-- The first product of the reference is the first support of the specification. -/
theorem v0_eq : val_main_v0 (F := Ideal) x w1 = sup1Arr x w1 := by
  funext i
  obtain ⟨r, j, rfl⟩ : ∃ (r : Fin 10000) (j : Fin 512), i = ix2 r j := ⟨i 0, i 1, eq_ix2 i⟩
  rw [val_main_v0_apply]
  show _ = sup1 x w1 r j
  unfold sup1
  refine Finset.sum_congr rfl fun k _ => ?_
  rw [lidx0, ridx0]

/-! ## The second support -/

/-- The bias of the first layer as the reference broadcasts it down the rows: entry (r, j) of the broadcast is the one-row
    matrix's entry (0, j). -/
theorem v3_apply (r : Fin 10000) (j : Fin 512) :
    val_main_v3 (F := Ideal) b1 (ix2 r j) = val_main_v2 (F := Ideal) b1 (ix2 (0 : Fin 1) j) := by
  rw [val_main_v3_apply]
  exact congrArg (val_main_v2 (F := Ideal) b1) (funext fun a => by match a with | ⟨0, _⟩ => rfl | ⟨1, _⟩ => rfl)

/-- The reference's activation after the rectifier is the hidden activation of the specification. -/
theorem v5_apply (r : Fin 10000) (j : Fin 512) :
    val_main_v5 (F := Ideal) x adj w1 b1 (ix2 r j) = hid adj (val_main_v0 (F := Ideal) x w1) (val_main_v2 (F := Ideal) b1) r j := by
  rw [val_main_v5_apply, val_main_v4_apply, val_main_v1_apply, v3_apply, val_main_call0_v0_apply, val_main_call0_cst_apply]
  unfold hid
  simp only [Ideal.maximumf_def, Ideal.addf_def, Ideal.ofBits_def, lidx1, ridx1]

/-- The reference's second product is the second support of the specification. -/
theorem v6_eq : val_main_v6 (F := Ideal) x adj w1 b1 w2
    = sup2Arr adj (val_main_v0 (F := Ideal) x w1) (val_main_v2 (F := Ideal) b1) w2 := by
  funext i
  obtain ⟨r, q, rfl⟩ : ∃ (r : Fin 10000) (q : Fin 7), i = ix2 r q := ⟨i 0, i 1, eq_ix2 i⟩
  rw [val_main_v6_apply]
  show _ = sup2 adj _ _ w2 r q
  unfold sup2
  refine Finset.sum_congr rfl fun k _ => ?_
  rw [lidx6, ridx6, v5_apply]

/-! ## The class probabilities -/

/-- The class bias as the reference broadcasts it down the rows. -/
theorem v9_apply (r : Fin 10000) (q : Fin 7) :
    val_main_v9 (F := Ideal) b2 (ix2 r q) = val_main_v8 (F := Ideal) b2 (ix2 (0 : Fin 1) q) := by
  rw [val_main_v9_apply]
  exact congrArg (val_main_v8 (F := Ideal) b2) (funext fun a => by match a with | ⟨0, _⟩ => rfl | ⟨1, _⟩ => rfl)

/-- The reference's logits are the specification's. -/
theorem v10_apply (r : Fin 10000) (q : Fin 7) :
    val_main_v10 (F := Ideal) x adj w1 b1 w2 b2 (ix2 r q)
      = logit adj (val_main_v6 (F := Ideal) x adj w1 b1 w2) (val_main_v8 (F := Ideal) b2) r q := by
  rw [val_main_v10_apply, val_main_v7_apply, v9_apply]
  unfold logit
  simp only [Ideal.addf_def, lidx7, ridx7]

/-- Inserting class q on the dropped axis of a row index gives the entry (r, q). -/
theorem lift_eq (h : S10000x7.Reduces [1] S10000) (r : Fin 10000) (q : Fin 7) : h.lift (ix1 r) q = ix2 r q :=
  funext fun a => Fin.ext (by match a with | ⟨0, _⟩ => rfl | ⟨1, _⟩ => rfl)

/-- The host's maximum over the classes, from minus infinity, is the row's largest logit. -/
theorem v11_apply (r : Fin 10000) :
    val_main_v11 (F := Ideal) x adj w1 b1 w2 b2 (ix1 r)
      = rowMax adj (val_main_v6 (F := Ideal) x adj w1 b1 w2) (val_main_v8 (F := Ideal) b2) r := by
  unfold val_main_v11
  rw [Host.reduce_eq_fold_single FloatOps.maximumf _ _ reducesTo_S10000x7_S10000_d1 (by decide) h_S_]
  unfold rowMax
  exact congrArg (fun f => Finset.fold max (Ideal.ofBits .f32 0xFF800000#32) f (Finset.univ : Finset (Fin 7)))
    (funext fun q => (congrArg (val_main_v10 (F := Ideal) x adj w1 b1 w2 b2) (lift_eq _ r q)).trans (v10_apply x adj w1 b1 w2 b2 r q))

/-- Minus infinity is neutral for the maximum. -/
theorem neg_inf_max (y : EReal) : max (Ideal.ofBits .f32 0xFF800000#32) y = y := by simp [Ideal.ofBits, Ideal.ieee]

/-- The reference's exponentials are the specification's: its second maximum, against minus infinity, changes nothing. -/
theorem v17_apply (r : Fin 10000) (q : Fin 7) :
    val_main_v17 (F := Ideal) x adj w1 b1 w2 b2 (ix2 r q)
      = expo adj (val_main_v6 (F := Ideal) x adj w1 b1 w2) (val_main_v8 (F := Ideal) b2) r q := by
  have e : idx_main_v14 (idx_main_v15 (ix2 r q)) = ix1 r := funext fun a => by match a with | ⟨0, _⟩ => rfl
  rw [val_main_v17_apply, val_main_v16_apply, v10_apply, val_main_v15_apply, val_main_v14_apply, e, val_main_v13_apply,
    val_main_v12_apply, val_main_cst_0_apply, v11_apply]
  unfold expo
  simp only [Ideal.hostUnary_exp_def, Ideal.subf_def, Ideal.maximumf_def, Ideal.ofBits_def, neg_inf_max]

/-- The reference's result is the specification's class probabilities: its sum starts from zero. -/
theorem v21_eq : val_main_v21 (F := Ideal) x adj w1 b1 w2 b2
    = probArr adj (val_main_v6 (F := Ideal) x adj w1 b1 w2) (val_main_v8 (F := Ideal) b2) := by
  funext i
  obtain ⟨r, q, rfl⟩ : ∃ (r : Fin 10000) (q : Fin 7), i = ix2 r q := ⟨i 0, i 1, eq_ix2 i⟩
  have e : idx_main_v19 (idx_main_v20 (ix2 r q)) = ix1 r := funext fun a => by match a with | ⟨0, _⟩ => rfl
  rw [val_main_v21_apply, v17_apply, val_main_v20_apply, val_main_v19_apply, e, val_main_v18_apply, val_main_cst_1_apply]
  show Ideal.div _ (Ideal.ofBits .f32 0x00000000#32 + _) = prob adj _ _ r q
  unfold prob
  rw [Ideal.ofBits_zero_f32, zero_add]
  refine congrArg (Ideal.div _) (Finset.sum_congr rfl fun k _ => ?_)
  have e' : idx_main_v18 (ix1 r) k = ix2 r k := funext fun a => by match a with | ⟨0, _⟩ => rfl | ⟨1, _⟩ => rfl
  rw [e', v17_apply]

/-- The reference's one-row broadcast of the first bias is the bias as a one-row matrix. -/
theorem v2_eq : val_main_v2 (F := Ideal) b1 = rowOf b1 := by
  funext i
  rw [val_main_v2_apply]
  exact congrArg b1 (funext fun a => by match a with | ⟨0, _⟩ => rfl)

/-- … and so is its broadcast of the class bias. -/
theorem v8_eq : val_main_v8 (F := Ideal) b2 = rowOf b2 := by
  funext i
  rw [val_main_v8_apply]
  exact congrArg b2 (funext fun a => by match a with | ⟨0, _⟩ => rfl)

/-- The reference's result as the specification's composition of the six argument arrays. -/
theorem result_eq : val_main_v21 (F := Ideal) x adj w1 b1 w2 b2
    = probArr adj (sup2Arr adj (sup1Arr x w1) (rowOf b1) w2) (rowOf b2) := by
  rw [v21_eq, v6_eq, v0_eq, v2_eq, v8_eq]

end Cert.ReferenceIdeal.RefValue

end
-- ==== Proof.lean ====
/-
  A two-layer graph convolution with a softmax over seven classes, computed by three pipelined kernels, against its
  plain array reference: at the ideal values (floats as extended reals, every operation exact, a change of format the
  identity) both programs compute

      prob = softmax_classes (adj · (max (adj · (x · W₁) + b₁, 0) · W₂) + b₂).

  The kernel program pads x and W₁ with zeros from 1433 to 1536 along the contracted axis, takes the first product
  in five row blocks, folds the hidden layer into the second product in twenty-five row blocks of the adjacency
  matrix, and takes the logits and their row-wise softmax in twenty-five row blocks again. Block by block each
  region's result array is one function of the arrays it stages (Support1, Support2, Softmax); read through the host
  operations between the regions (KernelValue) the result buffer holds the specification's class probabilities of the
  six arguments (Spec). The reference's composed term is the same function (RefValue). The two meet by the one law
  the tiling needs: the 103 padded positions contribute zero times zero to every entry of the first product. No
  step needs the inputs finite: sums are only regrouped, never distributed or cancelled.

  The three frames are the generated ones (the reference's is its run with the result dropped); the idealization
  rewrote no operation, so there is nothing to preserve beyond the program's own text.
-/
import proofs.«103336_g25812753449811_cont_sun_m_348_17_alg».proof.Defs
import proofs.«103336_g25812753449811_cont_sun_m_348_17_alg».proof.Proof.Gen.Kernel
import proofs.«103336_g25812753449811_cont_sun_m_348_17_alg».proof.Proof.Gen.Kernel.Frame
import proofs.«103336_g25812753449811_cont_sun_m_348_17_alg».proof.Proof.Gen.KernelIdeal
import proofs.«103336_g25812753449811_cont_sun_m_348_17_alg».proof.Proof.Gen.KernelIdeal.Frame
import proofs.«103336_g25812753449811_cont_sun_m_348_17_alg».proof.Proof.Gen.ReferenceIdeal
import proofs.«103336_g25812753449811_cont_sun_m_348_17_alg».proof.Proof.Gen.Pre_finite_inputs
import proofs.«103336_g25812753449811_cont_sun_m_348_17_alg».proof.Proof.Gen.ReferenceIdeal.Run
import proofs.«103336_g25812753449811_cont_sun_m_348_17_alg».proof.Proof.Gen.ReferenceIdeal.Read
import proofs.«103336_g25812753449811_cont_sun_m_348_17_alg».proof.Proof.Spec
import proofs.«103336_g25812753449811_cont_sun_m_348_17_alg».proof.Proof.KernelRun
import proofs.«103336_g25812753449811_cont_sun_m_348_17_alg».proof.Proof.KernelValue
import proofs.«103336_g25812753449811_cont_sun_m_348_17_alg».proof.Proof.RefValue
import Idealize.ShloMosaic.Adequacy
import Idealize.ShloMosaic.Init

set_option maxRecDepth 16384

noncomputable section

namespace Cert.Proof

open Idealize.ShloMosaic Idealize.SL.Sem
open Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the six arguments both programs end with the specification's class probabilities of
    those arguments in their result buffers. -/
theorem algebraic : Cert.algebraic_KernelIdeal_ReferenceIdeal := by
  intro m ρ m' ρ' _ hagree
  refine ⟨fun c => probArr (m ((c.tc : Thread Cert.KernelIdeal.nD Cert.KernelIdeal.τ).loc Cert.KernelIdeal.main_arg1))
      (sup2Arr (m ((c.tc : Thread Cert.KernelIdeal.nD Cert.KernelIdeal.τ).loc Cert.KernelIdeal.main_arg1)) (sup1Arr (m ((c.tc : Thread Cert.KernelIdeal.nD Cert.KernelIdeal.τ).loc Cert.KernelIdeal.main_arg0) : Mat 10000 1433) (m ((c.tc : Thread Cert.KernelIdeal.nD Cert.KernelIdeal.τ).loc Cert.KernelIdeal.main_arg2) : Mat 1433 512))
        (rowOf (m ((c.tc : Thread Cert.KernelIdeal.nD Cert.KernelIdeal.τ).loc Cert.KernelIdeal.main_arg3))) (m ((c.tc : Thread Cert.KernelIdeal.nD Cert.KernelIdeal.τ).loc Cert.KernelIdeal.main_arg4)))
      (rowOf (m ((c.tc : Thread Cert.KernelIdeal.nD Cert.KernelIdeal.τ).loc Cert.KernelIdeal.main_arg5))), ?_, ?_⟩
  · exact (θ_run Cert.KernelIdeal.defs _ _).mono (fun _ h c => ⟨(h c).1.trans (Cert.KernelIdeal.Fold.value m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2.1, (hagree c).2.2.1, (hagree c).2.2.2.1,
      (hagree c).2.2.2.2.1, (hagree c).2.2.2.2.2]
    exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
